-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S3x320000 : Shape := ⟨2, ![3, 320000]⟩
abbrev S768x256 : Shape := ⟨2, ![768, 256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S3x320000 : S_.BroadcastsInDim S3x320000 (![] : Fin 0 → Fin S3x320000.rank)
  reducesTo_S3x320000_S_d0_1 : S3x320000.ReducesTo [0, 1] S_
  bcast_S_S768x256 : S_.BroadcastsInDim S768x256 (![] : Fin 0 → Fin S768x256.rank)
  reducesTo_S768x256_S_d0_1 : S768x256.ReducesTo [0, 1] S_

variable [Facts]

def fn {F : FTy → Type} [FloatOps F] (main_arg0 : FVec F S20000x256 .f32) (main_arg1 : IVec S3x320000 32) (main_arg2 : IVec S3x320000 32) (main_arg3 : FVec F S3x320000 .f32) (main_arg4 : FVec F S768x256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S3x320000 .f32 := Host.absf main_arg3
  let main_cst_0 : FVec F S_ .f32 := constant S_ .f32 0x7F800000#32
  let main_v5 : FVec F S3x320000 .f32 := broadcastInDim S3x320000 ![] bcast_S_S3x320000 main_cst_0
  let main_v6 : IVec S3x320000 1 := cmpf .olt main_v4 main_v5
  let main_c_1 : IVec S_ 1 := constantI S_ 1 1#1
  let main_v7 : IVec S_ 1 := (fun x v => Host.reduce IntOp.andi x v reducesTo_S3x320000_S_d0_1 h_S_) main_v6 main_c_1
  let main_v8 : IVec S_ 1 := andi main_v3 main_v7
  let main_v9 : FVec F S768x256 .f32 := Host.absf main_arg4
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  main_v13
-- ==== Kernel.lean ====
abbrev S20000x256 : Shape := ⟨2, ![20000, 256]⟩
abbrev S3x320000 : Shape := ⟨2, ![3, 320000]⟩
abbrev S768x256 : Shape := ⟨2, ![768, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000x768 : Shape := ⟨2, ![20000, 768]⟩
abbrev S2000x768 : Shape := ⟨2, ![2000, 768]⟩
abbrev S2000x256 : Shape := ⟨2, ![2000, 256]⟩

abbrev nBuf : Space → Nat
  | .hbm => 73
  | .vmem => 5
  | .smem => 0
  | _ => 0

abbrev bufTy : (tb : Table) → Fin (tcTables nBuf tb) → BufTy
  | .hbm, ⟨0, _⟩ => ⟨S20000x256, .f32⟩
  | .hbm, ⟨1, _⟩ => ⟨S3x320000, .i32⟩
  | .hbm, ⟨2, _⟩ => ⟨S3x320000, .i32⟩
  | .hbm, ⟨3, _⟩ => ⟨S3x320000, .f32⟩
  | .hbm, ⟨4, _⟩ => ⟨S768x256, .f32⟩
  | .hbm, ⟨5, _⟩ => ⟨S1x320000, .i32⟩
  | .hbm, ⟨6, _⟩ => ⟨S320000, .i32⟩
  | .hbm, ⟨7, _⟩ => ⟨S_, .i32⟩
  | .hbm, ⟨8, _⟩ => ⟨S320000, .i32⟩
  | .hbm, ⟨9, _⟩ => ⟨S320000, .i1⟩
  | .hbm, ⟨10, _⟩ => ⟨S_, .i32⟩
  | .hbm, ⟨11, _⟩ => ⟨S320000, .i32⟩
  | .hbm, ⟨12, _⟩ => ⟨S320000, .i32⟩
  | .hbm, ⟨13, _⟩ => ⟨S320000, .i32⟩
  | .hbm, ⟨14, _⟩ => ⟨S320000x1, .i32⟩
  | .hbm, ⟨15, _⟩ => ⟨S320000x256, .f32⟩
  | .hbm, ⟨16, _⟩ => ⟨S1x320000, .f32⟩
  | .hbm, ⟨17, _⟩ => ⟨S320000, .f32⟩
  | .hbm, ⟨18, _⟩ => ⟨S320000x1, .f32⟩
  | .hbm, ⟨19, _⟩ => ⟨S320000x256, .f32⟩
  | .hbm, ⟨20, _⟩ => ⟨S320000x256, .f32⟩
  | .hbm, ⟨21, _⟩ => ⟨S1x320000, .i32⟩
  | .hbm, ⟨22, _⟩ => ⟨S320000, .i32⟩
  | .hbm, ⟨23, _⟩ => ⟨S_, .f32⟩
  | .hbm, ⟨24, _⟩ => ⟨S20000x256, .f32⟩
  | .hbm, ⟨25, _⟩ => ⟨S320000x1, .i32⟩
  | .hbm, ⟨26, _⟩ => ⟨S20000x256, .f32⟩
  | .hbm, ⟨27, _⟩ => ⟨S1x320000, .i32⟩
  | .hbm, ⟨28, _⟩ => ⟨S320000, .i32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x256, .f32⟩
  | .hbm, ⟨38, _⟩ => ⟨S1x320000, .f32⟩
  | .hbm, ⟨39, _⟩ => ⟨S320000, .f32⟩
  | .hbm, ⟨40, _⟩ => ⟨S320000x1, .f32⟩
  | .hbm, ⟨41, _⟩ => ⟨S320000x256, .f32⟩
  | .hbm, ⟨42, _⟩ => ⟨S320000x256, .f32⟩
  | .hbm, ⟨43, _⟩ => ⟨S1x320000, .i32⟩
  | .hbm, ⟨44, _⟩ => ⟨S320000, .i32⟩
  | .hbm, ⟨45, _⟩ => ⟨S_, .f32⟩
  | .hbm, ⟨46, _⟩ => ⟨S20000x256, .f32⟩
  | .hbm, ⟨47, _⟩ => ⟨S320000x1, .i32⟩
  | .hbm, ⟨48, _⟩ => ⟨S20000x256, .f32⟩
  | .hbm, ⟨49, _⟩ => ⟨S1x320000, .i32⟩
  | .hbm, ⟨50, _⟩ => ⟨S320000, .i32⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S320000x256, .f32⟩
  | .hbm, ⟨60, _⟩ => ⟨S1x320000, .f32⟩
  | .hbm, ⟨61, _⟩ => ⟨S320000, .f32⟩
  | .hbm, ⟨62, _⟩ => ⟨S320000x1, .f32⟩
  | .hbm, ⟨63, _⟩ => ⟨S320000x256, .f32⟩
  | .hbm, ⟨64, _⟩ => ⟨S320000x256, .f32⟩
  | .hbm, ⟨65, _⟩ => ⟨S1x320000, .i32⟩
  | .hbm, ⟨66, _⟩ => ⟨S320000, .i32⟩
  | .hbm, ⟨67, _⟩ => ⟨S_, .f32⟩
  | .hbm, ⟨68, _⟩ => ⟨S20000x256, .f32⟩
  | .hbm, ⟨69, _⟩ => ⟨S320000x1, .i32⟩
  | .hbm, ⟨70, _⟩ => ⟨S20000x256, .f32⟩
  | .hbm, ⟨71, _⟩ => ⟨S20000x768, .f32⟩
  | .hbm, ⟨72, _⟩ => ⟨S20000x256, .f32⟩
  | .local _ .vmem, ⟨0, _⟩ => ⟨S2000x768, .f32⟩
  | .local _ .vmem, ⟨1, _⟩ => ⟨S2000x768, .f32⟩
  | .local _ .vmem, ⟨2, _⟩ => ⟨S768x256, .f32⟩
  | .local _ .vmem, ⟨3, _⟩ => ⟨S2000x256, .f32⟩
  | .local _ .vmem, ⟨4, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_c_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S3x320000_S1x320000_0_0 : S3x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  slices_S3x320000_S1x320000_1_0 : S3x320000.Slices ![1, 0] S1x320000
  slices_S3x320000_S1x320000_2_0 : S3x320000.Slices ![2, 0] S1x320000
  concatenates_S20000x256_S20000x256_S20000x256_S20000x768_d1 : Shape.Concatenates [S20000x256, S20000x256, S20000x256] S20000x768 1
  inb_S2000x768_S2000x768_0_0 : ∀ a, (![0, 0] : Fin 2 → Nat) a + S2000x768.size a ≤ S2000x768.size a
  h_S2000x768 : 0 < S2000x768.numel
  shapeCasts_S2000x768_S2000x768 : S2000x768.ShapeCasts S2000x768
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S2000x256_S2000x256_0_0 : ∀ a, (![0, 0] : Fin 2 → Nat) a + S2000x256.size a ≤ S2000x256.size a
  h_S2000x256 : 0 < S2000x256.numel
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x768_S768x256_S2000x256_1_0_0_1_n_n_wf : DotDims.WF S2000x768 S768x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S20000x768.size a
  hwx0_0 : ∀ i : grid0.Coords, EltTy.bits .f32 = 32 ∨ (Rect.block (s := S20000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf

abbrev win0_0 : Pipeline.Window sig grid0 :=
  Pipeline.Window.ofSpec (Memref.whole main_v57) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S20000x256 : Shape := ⟨2, ![20000, 256]⟩
abbrev S3x320000 : Shape := ⟨2, ![3, 320000]⟩
abbrev S768x256 : Shape := ⟨2, ![768, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000x768 : Shape := ⟨2, ![20000, 768]⟩

abbrev nBuf : Space → Nat
  | .hbm => 73
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S3x320000, .i32⟩
  | .hbm, ⟨2, _⟩ => ⟨S3x320000, .i32⟩
  | .hbm, ⟨3, _⟩ => ⟨S3x320000, .f32⟩
  | .hbm, ⟨4, _⟩ => ⟨S768x256, .f32⟩
  | .hbm, ⟨5, _⟩ => ⟨S1x320000, .i32⟩
  | .hbm, ⟨6, _⟩ => ⟨S320000, .i32⟩
  | .hbm, ⟨7, _⟩ => ⟨S_, .i32⟩
  | .hbm, ⟨8, _⟩ => ⟨S320000, .i32⟩
  | .hbm, ⟨9, _⟩ => ⟨S320000, .i1⟩
  | .hbm, ⟨10, _⟩ => ⟨S_, .i32⟩
  | .hbm, ⟨11, _⟩ => ⟨S320000, .i32⟩
  | .hbm, ⟨12, _⟩ => ⟨S320000, .i32⟩
  | .hbm, ⟨13, _⟩ => ⟨S320000, .i32⟩
  | .hbm, ⟨14, _⟩ => ⟨S320000x1, .i32⟩
  | .hbm, ⟨15, _⟩ => ⟨S320000x256, .f32⟩
  | .hbm, ⟨16, _⟩ => ⟨S1x320000, .f32⟩
  | .hbm, ⟨17, _⟩ => ⟨S320000, .f32⟩
  | .hbm, ⟨18, _⟩ => ⟨S320000x1, .f32⟩
  | .hbm, ⟨19, _⟩ => ⟨S320000x256, .f32⟩
  | .hbm, ⟨20, _⟩ => ⟨S320000x256, .f32⟩
  | .hbm, ⟨21, _⟩ => ⟨S1x320000, .i32⟩
  | .hbm, ⟨22, _⟩ => ⟨S320000, .i32⟩
  | .hbm, ⟨23, _⟩ => ⟨S_, .f32⟩
  | .hbm, ⟨24, _⟩ => ⟨S20000x256, .f32⟩
  | .hbm, ⟨25, _⟩ => ⟨S320000x1, .i32⟩
  | .hbm, ⟨26, _⟩ => ⟨S20000x256, .f32⟩
  | .hbm, ⟨27, _⟩ => ⟨S1x320000, .i32⟩
  | .hbm, ⟨28, _⟩ => ⟨S320000, .i32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x256, .f32⟩
  | .hbm, ⟨38, _⟩ => ⟨S1x320000, .f32⟩
  | .hbm, ⟨39, _⟩ => ⟨S320000, .f32⟩
  | .hbm, ⟨40, _⟩ => ⟨S320000x1, .f32⟩
  | .hbm, ⟨41, _⟩ => ⟨S320000x256, .f32⟩
  | .hbm, ⟨42, _⟩ => ⟨S320000x256, .f32⟩
  | .hbm, ⟨43, _⟩ => ⟨S1x320000, .i32⟩
  | .hbm, ⟨44, _⟩ => ⟨S320000, .i32⟩
  | .hbm, ⟨45, _⟩ => ⟨S_, .f32⟩
  | .hbm, ⟨46, _⟩ => ⟨S20000x256, .f32⟩
  | .hbm, ⟨47, _⟩ => ⟨S320000x1, .i32⟩
  | .hbm, ⟨48, _⟩ => ⟨S20000x256, .f32⟩
  | .hbm, ⟨49, _⟩ => ⟨S1x320000, .i32⟩
  | .hbm, ⟨50, _⟩ => ⟨S320000, .i32⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S320000x256, .f32⟩
  | .hbm, ⟨60, _⟩ => ⟨S1x320000, .f32⟩
  | .hbm, ⟨61, _⟩ => ⟨S320000, .f32⟩
  | .hbm, ⟨62, _⟩ => ⟨S320000x1, .f32⟩
  | .hbm, ⟨63, _⟩ => ⟨S320000x256, .f32⟩
  | .hbm, ⟨64, _⟩ => ⟨S320000x256, .f32⟩
  | .hbm, ⟨65, _⟩ => ⟨S1x320000, .i32⟩
  | .hbm, ⟨66, _⟩ => ⟨S320000, .i32⟩
  | .hbm, ⟨67, _⟩ => ⟨S_, .f32⟩
  | .hbm, ⟨68, _⟩ => ⟨S20000x256, .f32⟩
  | .hbm, ⟨69, _⟩ => ⟨S320000x1, .i32⟩
  | .hbm, ⟨70, _⟩ => ⟨S20000x256, .f32⟩
  | .hbm, ⟨71, _⟩ => ⟨S20000x768, .f32⟩
  | .hbm, ⟨72, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_c_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]

class Facts₀ : Prop where
  slices_S3x320000_S1x320000_0_0 : S3x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  slices_S3x320000_S1x320000_1_0 : S3x320000.Slices ![1, 0] S1x320000
  slices_S3x320000_S1x320000_2_0 : S3x320000.Slices ![2, 0] S1x320000
  concatenates_S20000x256_S20000x256_S20000x256_S20000x768_d1 : Shape.Concatenates [S20000x256, S20000x256, S20000x256] S20000x768 1
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x768_S768x256_S20000x256_1_0_0_1_n_n_wf : DotDims.WF S20000x768 S768x256 S20000x256 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x768_S768x256_S20000x256_1_0_0_1_n_n : DotDims S20000x768 S768x256 S20000x256 where
  lhsContracting := [1]
  rhsContracting := [0]
  lhsNonContracting := [0]
  rhsNonContracting := [1]
  lhsBatch := []
  rhsBatch := []
  wf := dot_S20000x768_S768x256_S20000x256_1_0_0_1_n_n_wf

class Facts : Prop extends Facts₀ where

variable [Facts]
-- ==== Proof.FrameKI.lean ====
/-
  The frame of the program: the host operations that build the concatenated feature array, then the one region that
  multiplies it, two thousand rows at a time, by the weight matrix.  Every weakly fair execution terminates, nothing
  faults, and the five argument arrays end as they were launched.

  The region's three windows: window 0 walks the feature array (20000 x 768) in ten blocks of 2000 rows, fetched at every
  grid point; window 1 is the whole weight matrix (768 x 256), fetched once; window 2 walks the result (20000 x 256) in
  ten blocks of 2000 rows, written back at every point.  At a point the body loads the two input blocks whole, loads
  the result block (a value it never uses) and stores the product over the whole result block; so after the body the
  result's staging buffer holds the one stored piece, and each input's buffer holds its block.  None of the host
  operations writes an argument array, so the region finds the arguments as launched.
-/
import proofs.«135675_j30073361007326_1_alg».proof.Proof.Gen.KernelIdeal.Launch
import proofs.«135675_j30073361007326_1_alg».proof.Proof.Gen.KernelIdeal.Skeleton
import proofs.«135675_j30073361007326_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What each buffer of core `c` holds when the region is entered: the host operations applied, in order, to the
    launch memory. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no host operation writes is found by the region as launched: every operation writes exactly its
    result buffer, and none of the results is the buffer. -/
theorem V_of_not_written (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

set_option maxHeartbeats 4000000 in
theorem V_main_arg0 (c : Dev nD) : V m c main_arg0 = m ((c : Thread nD τ).loc main_arg0) :=
  V_of_not_written m c main_arg0 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
set_option maxHeartbeats 4000000 in
theorem V_main_arg1 (c : Dev nD) : V m c main_arg1 = m ((c : Thread nD τ).loc main_arg1) :=
  V_of_not_written m c main_arg1 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
set_option maxHeartbeats 4000000 in
theorem V_main_arg2 (c : Dev nD) : V m c main_arg2 = m ((c : Thread nD τ).loc main_arg2) :=
  V_of_not_written m c main_arg2 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
set_option maxHeartbeats 4000000 in
theorem V_main_arg3 (c : Dev nD) : V m c main_arg3 = m ((c : Thread nD τ).loc main_arg3) :=
  V_of_not_written m c main_arg3 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
set_option maxHeartbeats 4000000 in
theorem V_main_arg4 (c : Dev nD) : V m c main_arg4 = m ((c : Thread nD τ).loc main_arg4) :=
  V_of_not_written m c main_arg4 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds its block when the body starts. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds the weight matrix when the body starts, at the first point because it was
    fetched there and at a later one because nothing has moved it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From the region's run to the frame -/

/-- The weight matrix is an input window's array, never written back; the other four arguments are no window's array and
    are left as the region found them; and the region found all five as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans (((dats 0 c).arrAt_in 1 rfl _).trans ((hA c 1).trans (V_main_arg4 m c)))⟩) h

/-! ## The body -/

/-- The whole feature block, the whole weight matrix, the whole result block. -/
abbrev rA : Rect S2000x768 := Rect.unit (s := S2000x768) ![0, 0] S2000x768.size inb_S2000x768_S2000x768_0_0
abbrev rB : Rect S768x256 := Rect.unit (s := S768x256) ![0, 0] S768x256.size inb_S768x256_S768x256_0_0
abbrev rO : Rect S2000x256 := Rect.unit (s := S2000x256) ![0, 0] S2000x256.size inb_S2000x256_S2000x256_0_0

/-- What the result's staging buffer holds after the body: the one store, of the product of the two loaded blocks,
    over the whole buffer. -/
def outBlock (x0 : Vec F S2000x768 .f32) (x1 : Vec F S768x256 .f32) : Vec F S2000x256 .f32 :=
  View.canon [⟨rO, k0_pay1 (View.ld x0 rA) (View.ld x1 rB)⟩]

/-- The one store covers the buffer. -/
theorem outCover (p0 : Vec F S2000x256 .f32) (y : S2000x256.Idx) :
    ∃ pc ∈ ([⟨rO, p0⟩] : List (View.Piece (Elt F) S2000x256 .f32)), y ∈ pc.1.set :=
  View.cover_of_tiled [⟨rO, p0⟩] S2000x256.size (by rfl) y

set_option maxHeartbeats 1000000 in
/-- The body, on whole staging buffers holding `x0`, `x1` and anything, returns them holding `x0`, `x1` and the
    product block. -/
theorem sound_kernel (c : Dev nD) (E : Set ℕ) (i : grid0.Coords) (arg1 : Memref sig .tc .vmem S2000x768 .f32) (harg1 : arg1.IsWhole) (arg2 : Memref sig .tc .vmem S768x256 .f32) (harg2 : arg2.IsWhole) (arg3 : Memref sig .tc .vmem S2000x256 .f32) (harg3 : arg3.IsWhole)
    (x0 : Vec F S2000x768 .f32) (x1 : Vec F S768x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The region's proof data -/

/-- The arrays as the region finds them; after the body at point `t` each input's buffer at its block and the
    result's buffer at the product of the two input blocks; no scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each window's array holds what the
    points' write-backs leave and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.LibNary3.lean ====
/-
  A host operation over a literal family of THREE operand references (a concatenate of three pieces): what it leaves at
  its result buffer, with each operand's contents read AT ITS OWN REFERENCE rather than under a binder over the family's
  index.  In that form the operands' contents can be rewritten further, one reference at a time, which is how the
  composed term of a sequence of host operations is computed.  Nothing here names a program.
-/
import Idealize.ShloMosaic.Lib.StableHlo.Run

namespace Cert.LibNary3

open Idealize.ShloMosaic Idealize.ShloMosaic.StableHlo

variable {τ : Topo} {sig : RefSig} {Val : EltTy → Type} {x a b y : Ref sig .tc}

/-- The result of an operation over the three references `x`, `a`, `b` is its function of the three buffers'
    contents, listed. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, in the form a simplifier pass uses (the result reference not part of the pattern's key). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3
-- ==== Proof.ValueKI.lean ====
/-
  What the idealized program's result array holds after the run, as one function of the argument arrays.

  The region finds the feature array at the composed term of the host operations that precede it (slices, gathers,
  products with the edge weights, scatter-additions and the concatenate of the three supports): the same term, operation
  by operation, that the reference computes before its matrix product.  At the extended reals a change of float format is
  the identity and a matrix product into a zero accumulator is the plain sum over the contracted axis; so the block a
  grid point writes back is, at row p and column q of the block, the sum over k of feature (t * 2000 + p, k) times weight
  (k, q): block t of the whole product.  The ten blocks tile the result array, row r lying in block r / 2000, so the array
  ends holding the whole product.
-/
import proofs.«135675_j30073361007326_1_alg».proof.Proof.FrameKI
import proofs.«135675_j30073361007326_1_alg».proof.Proof.LibNary3
import proofs.«135675_j30073361007326_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)

/-! ## The feature array the region finds -/

section Feature

variable {F : FTy → Type} [FloatOps F]
variable (m : (ℓ : Loc nD τ sig) → Buf (Elt F) ℓ)

set_option maxHeartbeats 40000000 in
/-- The feature array as the region finds it is the reference's feature term of the four arguments it depends on. -/
theorem feature_eq (c : Dev nD) :
    (V m c main_v57 : S20000x768.Idx → Elt F .f32)
      = Cert.ReferenceIdeal.Read.val_main_v57 (F := F) (m ((c : Thread nD τ).loc main_arg0)) (m ((c : Thread nD τ).loc main_arg1)) (m ((c : Thread nD τ).loc main_arg2)) (m ((c : Thread nD τ).loc main_arg3)) := by
  dsimp only [V, hostOps0]
  simp (disch := decide) only [StableHlo.after_cons, StableHlo.after_nil,
      StableHlo.nullary_result', StableHlo.unary_result', StableHlo.binary_result', StableHlo.ternary_result', StableHlo.reshape_result',
      Cert.LibNary3.nary3_result',
      StableHlo.nullary_result_ne', StableHlo.unary_result_ne', StableHlo.binary_result_ne', StableHlo.ternary_result_ne', StableHlo.reshape_result_ne',
      StableHlo.nary_result_ne']
  rfl

end Feature

/-! ## The product, index by index -/

/-- Row `i 0`, column `k` of the feature array; row `k`, column `i 1` of the weight matrix. -/
abbrev featIdx (i : S20000x256.Idx) (k : Fin 768) : S20000x768.Idx := fun a => match a with
  | ⟨0, _⟩ => ⟨(i 0).val, (i 0).isLt⟩
  | ⟨1, _⟩ => ⟨k.val, k.isLt⟩
abbrev wIdx (i : S20000x256.Idx) (k : Fin 768) : S768x256.Idx := fun a => match a with
  | ⟨0, _⟩ => ⟨k.val, k.isLt⟩
  | ⟨1, _⟩ => ⟨(i 1).val, (i 1).isLt⟩

/-- The whole product of a feature array and a weight matrix over the extended reals. -/
def product (h : S20000x768.Idx → EReal) (w : S768x256.Idx → EReal) : S20000x256.Idx → EReal :=
  fun i => ∑ k : Fin 768, h (featIdx i k) * w (wIdx i k)

/-- The same two indices inside a block of 2000 rows. -/
abbrev blkFeatIdx (j : S2000x256.Idx) (k : Fin 768) : S2000x768.Idx := fun a => match a with
  | ⟨0, _⟩ => ⟨(j 0).val, (j 0).isLt⟩
  | ⟨1, _⟩ => ⟨k.val, k.isLt⟩
abbrev blkWIdx (j : S2000x256.Idx) (k : Fin 768) : S768x256.Idx := fun a => match a with
  | ⟨0, _⟩ => ⟨k.val, k.isLt⟩
  | ⟨1, _⟩ => ⟨(j 1).val, (j 1).isLt⟩

theorem lhs_0 (i : S2000x256.Idx) (q : dot_S2000x768_S768x256_S2000x256_1_0_0_1_n_n.contr.Idx) :
    (dot_S2000x768_S768x256_S2000x256_1_0_0_1_n_n.lhsIdx i q 0).val = (i 0).val := by
  unfold DotDims.lhsIdx
  rw [dif_neg (show ¬(0 : Fin S2000x768.rank) ∈ dot_S2000x768_S768x256_S2000x256_1_0_0_1_n_n.lhsBatch by decide), dif_pos (show (0 : Fin S2000x768.rank) ∈ dot_S2000x768_S768x256_S2000x256_1_0_0_1_n_n.lhsNonContracting by decide)]
  rfl
theorem lhs_1 (i : S2000x256.Idx) (q : dot_S2000x768_S768x256_S2000x256_1_0_0_1_n_n.contr.Idx) :
    (dot_S2000x768_S768x256_S2000x256_1_0_0_1_n_n.lhsIdx i q 1).val = (q ⟨0, by decide⟩).val :=
  dot_S2000x768_S768x256_S2000x256_1_0_0_1_n_n.lhsIdx_val_of_single rfl i q
theorem rhs_0 (i : S2000x256.Idx) (q : dot_S2000x768_S768x256_S2000x256_1_0_0_1_n_n.contr.Idx) :
    (dot_S2000x768_S768x256_S2000x256_1_0_0_1_n_n.rhsIdx i q 0).val = (q ⟨0, by decide⟩).val :=
  dot_S2000x768_S768x256_S2000x256_1_0_0_1_n_n.rhsIdx_val_of_single rfl i q
theorem rhs_1 (i : S2000x256.Idx) (q : dot_S2000x768_S768x256_S2000x256_1_0_0_1_n_n.contr.Idx) :
    (dot_S2000x768_S768x256_S2000x256_1_0_0_1_n_n.rhsIdx i q 1).val = (i 1).val := by
  unfold DotDims.rhsIdx
  rw [dif_neg (show ¬(1 : Fin S768x256.rank) ∈ dot_S2000x768_S768x256_S2000x256_1_0_0_1_n_n.rhsBatch by decide), dif_pos (show (1 : Fin S768x256.rank) ∈ dot_S2000x768_S768x256_S2000x256_1_0_0_1_n_n.rhsNonContracting by decide)]
  rfl

/-- The body's product of two loaded blocks, at an entry of the result block: the format changes are the identity and
    the accumulator is zero, so it is the sum over the contracted axis. -/
theorem payload_apply (x0 : Vec Ideal S2000x768 .f32) (x1 : Vec Ideal S768x256 .f32) (j : S2000x256.Idx) :
    k0_pay1 (F := Ideal) x0 x1 j = ∑ k : Fin 768, x0 (blkFeatIdx j k) * x1 (blkWIdx j k) := by
  show FloatOps.matmul dot_S2000x768_S768x256_S2000x256_1_0_0_1_n_n none (truncf (F := Ideal) .bf16 (shapeCast S2000x768 x0 shapeCasts_S2000x768_S2000x768) bitsLt_bf16_f32) (truncf (F := Ideal) .bf16 x1 bitsLt_bf16_f32) (constant (F := Ideal) S2000x256 .f32 0x00000000#32) j = _
  rw [Ideal.matmul_constant_zero_apply, ← Equiv.sum_comp (ValueIdx.contrEquiv1 dot_S2000x768_S768x256_S2000x256_1_0_0_1_n_n 768 rfl rfl).symm]
  refine Finset.sum_congr rfl fun k _ => ?_
  have hk := ValueIdx.contrEquiv1_symm_val dot_S2000x768_S768x256_S2000x256_1_0_0_1_n_n 768 rfl rfl k
  have el : dot_S2000x768_S768x256_S2000x256_1_0_0_1_n_n.lhsIdx j ((ValueIdx.contrEquiv1 dot_S2000x768_S768x256_S2000x256_1_0_0_1_n_n 768 rfl rfl).symm k) = blkFeatIdx j k := funext fun a => Fin.ext (by
    match a with
    | ⟨0, _⟩ => exact lhs_0 _ _
    | ⟨1, _⟩ => exact (lhs_1 _ _).trans hk)
  have er : dot_S2000x768_S768x256_S2000x256_1_0_0_1_n_n.rhsIdx j ((ValueIdx.contrEquiv1 dot_S2000x768_S768x256_S2000x256_1_0_0_1_n_n 768 rfl rfl).symm k) = blkWIdx j k := funext fun a => Fin.ext (by
    match a with
    | ⟨0, _⟩ => exact (rhs_0 _ _).trans hk
    | ⟨1, _⟩ => exact rhs_1 _ _)
  rw [el, er]
  show (shapeCast S2000x768 x0 shapeCasts_S2000x768_S2000x768) (blkFeatIdx j k) * x1 (blkWIdx j k) = _
  rw [shapeCast_self]

/-! ## From the blocks to the array -/

variable (m : (ℓ : Loc nD τ sig) → Buf (Elt Ideal) ℓ) (ρ : Dev nD → PrngReg)

/-- The two arrays the region multiplies, as it finds them, at their literal types. -/
abbrev featArr (c : Dev nD) : S20000x768.Idx → EReal := V m c main_v57
abbrev wArr (c : Dev nD) : S768x256.Idx → EReal := V m c main_arg4

theorem hz : (![0, 0] : Fin 2 → Nat) = fun _ => 0 := funext fun a => by fin_cases a <;> rfl

/-- The index maps over the ten grid points: the feature window and the result window sit at block row `t`, block
    column 0; the weight window at block (0, 0). -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every block row is some point's. -/
theorem idx_onto : ∀ (q0 : Fin 10), ∃ t : Fin cfg0.N, win0_2.index t = ![q0.val, 0] :=
  (by decide +kernel : ∀ (q0 : Fin 10), ∃ t : Fin grid0.N, win0_2.index t = ![q0.val, 0])

/-- What point `t` writes back is block `t` of the whole product of the feature array and the weight matrix as the
    region finds them. -/
theorem flushed_eq (c : Dev nD) (t : Fin cfg0.N) :
    (dats m 0 c).flushed 2 t = ((cfg0.win 2).blk t).view.read (Elt Ideal) (product (featArr m c) (wArr m c)) := by
  show (cfg0.win 2).cut (grid0.coords t) ((dats m 0 c).after 2 t) = _
  rw [after0_2]
  unfold outBlock
  rw [View.canon_unit_zero hz]
  simp only [View.ld_unit_zero (S := S2000x768) hz, View.ld_unit_zero (S := S768x256) hz]
  obtain ⟨e0, e1, e2, e3, e4, e5⟩ := idx_facts t
  funext j
  refine (payload_apply (iblk m c 0 t) (iblk m c 1 t) j).trans ?_
  show (∑ k : Fin 768, featArr m c (((cfg0.win 0).blk t).view.emb (blkFeatIdx j k)) * wArr m c (((cfg0.win 1).blk t).view.emb (blkWIdx j k)))
    = ∑ k : Fin 768, featArr m c (featIdx (((cfg0.win 2).blk t).view.emb j) k) * wArr m c (wIdx (((cfg0.win 2).blk t).view.emb j) k)
  refine Finset.sum_congr rfl fun k _ => ?_
  have h0 : ((cfg0.win 0).blk t).view.emb (blkFeatIdx j k) = featIdx (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 768 + 1 * k.val = k.val; omega
  have h1 : ((cfg0.win 1).blk t).view.emb (blkWIdx j k) = wIdx (((cfg0.win 2).blk t).view.emb j) k := by
    funext a; apply Fin.ext
    match a with
    | ⟨0, _⟩ => show win0_1.index t (0 : Fin 2) * 768 + 1 * k.val = k.val; omega
    | ⟨1, _⟩ => show win0_1.index t (1 : Fin 2) * 256 + 1 * (j 1).val = win0_2.index t (1 : Fin 2) * 256 + 1 * (j 1).val; omega
  rw [h0, h1]

/-- An index of the result array is in point `t`'s block iff each coordinate is in the block's range on its axis. -/
theorem mem_blk (t : Fin cfg0.N) (i : S20000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v58).slice (win0_2.rect t)).set ↔ _
  rw [View.set_slice_whole, Rect.mem_set_unit]
  exact Iff.rfl

/-- Row `r` of the result lies in the block of the point at block row `r / 2000`. -/
theorem covered (i : S20000x256.Idx) :
    ∃ t : Fin cfg0.N, (cfg0.win 2).flush t = true ∧ i ∈ ((cfg0.win 2).blk t).view.set := by
  have hi0 : (i 0).val < 20000 := (i 0).isLt
  have hi1 : (i 1).val < 256 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The result array after the run: the whole product of the reference's feature term and the weight matrix, both of
    the arguments as launched. -/
theorem final (c : Dev nD) : (dats m 0 c).arrAt 2 cfg0.N
    = product (Cert.ReferenceIdeal.Read.val_main_v57 (F := Ideal) (m ((c : Thread nD τ).loc main_arg0)) (m ((c : Thread nD τ).loc main_arg1)) (m ((c : Thread nD τ).loc main_arg2)) (m ((c : Thread nD τ).loc main_arg3))) (m ((c : Thread nD τ).loc main_arg4)) := by
  rw [(dats m 0 c).arrAt_eq_of_cover 2 (product (featArr m c) (wArr m c)) (fun t _ => flushed_eq m c t) covered]
  show product (V m c main_v57) (V m c main_arg4) = _
  rw [feature_eq m c, V_main_arg4 m c]

/-- The run, read: the result array at the whole product, the five arguments unchanged. -/
theorem run : θ_run defs (onTc (τ := τ) (main (F := Ideal))) ⟨m, fun _ => 0, ρ⟩ fun r => ∀ c : Dev nD,
      r.2.mem ((c.tc : Thread nD τ).loc main_v58)
        = product (Cert.ReferenceIdeal.Read.val_main_v57 (F := Ideal) (m ((c : Thread nD τ).loc main_arg0)) (m ((c : Thread nD τ).loc main_arg1)) (m ((c : Thread nD τ).loc main_arg2)) (m ((c : Thread nD τ).loc main_arg3))) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans (((dats m 0 c).arrAt_in 1 rfl _).trans ((A_eq m c 1).trans (V_main_arg4 m c)))⟩)
    (run_main m ρ)

end Cert.KernelIdeal.HandValue

end
-- ==== Proof.Bridge.lean ====
/-
  The two idealized programs compute one function.  The reference multiplies the feature term by the weight matrix with
  one host matrix product; read at an index that is the sum over the contracted axis of feature (row, k) times weight
  (k, column): the whole product the kernel's ten blocks tile.  Both sums run over the same index set in the same order, so
  no law of the extended reals is needed, and the precondition is never opened.
-/
import proofs.«135675_j30073361007326_1_alg».proof.Proof.ValueKI

noncomputable section

namespace Cert.Bridge

open Idealize.ShloMosaic Idealize.ShloMosaic.TcCoe Idealize.SL.Sem

/-- The reference's result, as a function of its five arguments, is the whole product of its feature term and the weight
    matrix. -/
theorem reference_is_product (x0 : (⟨Cert.ReferenceIdeal.S20000x256, .f32⟩ : BufTy).Contents (Elt Ideal))
    (x1 x2 : (⟨Cert.ReferenceIdeal.S3x320000, .i32⟩ : BufTy).Contents (Elt Ideal))
    (x3 : (⟨Cert.ReferenceIdeal.S3x320000, .f32⟩ : BufTy).Contents (Elt Ideal))
    (x4 : (⟨Cert.ReferenceIdeal.S768x256, .f32⟩ : BufTy).Contents (Elt Ideal)) :
    Cert.ReferenceIdeal.Read.val_main_v58 (F := Ideal) x0 x1 x2 x3 x4
      = Cert.KernelIdeal.HandValue.product (Cert.ReferenceIdeal.Read.val_main_v57 (F := Ideal) x0 x1 x2 x3) x4 := by
  funext i
  rw [Cert.ReferenceIdeal.Read.val_main_v58_apply]
  rfl

end Cert.Bridge

end
-- ==== Proof.lean ====
/-
  The five claims about a graph layer: three sparse adjacency products (gather the source rows, scale by the edge weights,
  scatter-add into the destination rows), concatenated, then multiplied by a dense weight matrix.  The kernel does the last
  product in a region over ten blocks of 2000 rows; the reference does it with one host matrix product.

  Frames: the kernel's two readings run the same text, host operations then the region, and leave the arguments as
  launched; the reference is host operations only.  The idealization rewrote nothing.  At the extended reals both programs
  end with the whole product of the same feature term and the weight matrix.
-/
import proofs.«135675_j30073361007326_1_alg».proof.Defs
import proofs.«135675_j30073361007326_1_alg».proof.Proof.Gen.Kernel
import proofs.«135675_j30073361007326_1_alg».proof.Proof.Gen.KernelIdeal
import proofs.«135675_j30073361007326_1_alg».proof.Proof.Gen.ReferenceIdeal
import proofs.«135675_j30073361007326_1_alg».proof.Proof.Gen.Pre_finite_inputs
import proofs.«135675_j30073361007326_1_alg».proof.Proof.Gen.ReferenceIdeal.Run
import proofs.«135675_j30073361007326_1_alg».proof.Proof.Gen.ReferenceIdeal.Read
import proofs.«135675_j30073361007326_1_alg».proof.Proof.FrameK
import proofs.«135675_j30073361007326_1_alg».proof.Proof.FrameKI
import proofs.«135675_j30073361007326_1_alg».proof.Proof.ValueKI
import proofs.«135675_j30073361007326_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the whole product of the feature term and the weight matrix of arguments
    that agree. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1, (hagree c).2.2.2.2]
  exact Cert.Bridge.reference_is_product _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
